-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x9 : Shape := ⟨2, ![1048576, 9]⟩
abbrev S9x128 : Shape := ⟨2, ![9, 128]⟩
abbrev S1x128 : Shape := ⟨2, ![1, 128]⟩
abbrev S128x64 : Shape := ⟨2, ![128, 64]⟩
abbrev S1x64 : Shape := ⟨2, ![1, 64]⟩
abbrev S64x9 : Shape := ⟨2, ![64, 9]⟩
abbrev S1x9 : Shape := ⟨2, ![1, 9]⟩
abbrev S_ : Shape := ⟨0, ![]⟩

class Facts : Prop where
  bcast_S_S1048576x9 : S_.BroadcastsInDim S1048576x9 (![] : Fin 0 → Fin S1048576x9.rank)
  reducesTo_S1048576x9_S_d0_1 : S1048576x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_
  bcast_S_S64x9 : S_.BroadcastsInDim S64x9 (![] : Fin 0 → Fin S64x9.rank)
  reducesTo_S64x9_S_d0_1 : S64x9.ReducesTo [0, 1] S_
  bcast_S_S1x9 : S_.BroadcastsInDim S1x9 (![] : Fin 0 → Fin S1x9.rank)
  reducesTo_S1x9_S_d0_1 : S1x9.ReducesTo [0, 1] S_

variable [Facts]

def fn_part1 {F : FTy → Type} [FloatOps F] (main_arg4 : FVec F S1x64 .f32) (main_arg5 : FVec F S64x9 .f32) (main_arg6 : FVec F S1x9 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x9 .f32 := Host.absf main_arg5
  let main_cst_8 : FVec F S_ .f32 := constant S_ .f32 0x7F800000#32
  let main_v25 : FVec F S64x9 .f32 := broadcastInDim S64x9 ![] bcast_S_S64x9 main_cst_8
  let main_v26 : IVec S64x9 1 := cmpf .olt main_v24 main_v25
  let main_c_9 : IVec S_ 1 := constantI S_ 1 1#1
  let main_v27 : IVec S_ 1 := (fun x v => Host.reduce IntOp.andi x v reducesTo_S64x9_S_d0_1 h_S_) main_v26 main_c_9
  let main_v28 : IVec S_ 1 := andi main_v23 main_v27
  let main_v29 : FVec F S1x9 .f32 := Host.absf main_arg6
  let main_cst_10 : FVec F S_ .f32 := constant S_ .f32 0x7F800000#32
  let main_v30 : FVec F S1x9 .f32 := broadcastInDim S1x9 ![] bcast_S_S1x9 main_cst_10
  let main_v31 : IVec S1x9 1 := cmpf .olt main_v29 main_v30
  let main_c_11 : IVec S_ 1 := constantI S_ 1 1#1
  let main_v32 : IVec S_ 1 := (fun x v => Host.reduce IntOp.andi x v reducesTo_S1x9_S_d0_1 h_S_) main_v31 main_c_11
  let main_v33 : IVec S_ 1 := andi main_v28 main_v32
  main_v33

def fn {F : FTy → Type} [FloatOps F] (main_arg0 : FVec F S1048576x9 .f32) (main_arg1 : FVec F S9x128 .f32) (main_arg2 : FVec F S1x128 .f32) (main_arg3 : FVec F S128x64 .f32) (main_arg4 : FVec F S1x64 .f32) (main_arg5 : FVec F S64x9 .f32) (main_arg6 : FVec F S1x9 .f32) : IVec S_ 1 :=
  let main_v0 : FVec F S1048576x9 .f32 := Host.absf main_arg0
  let main_cst : FVec F S_ .f32 := constant S_ .f32 0x7F800000#32
  let main_v1 : FVec F S1048576x9 .f32 := broadcastInDim S1048576x9 ![] bcast_S_S1048576x9 main_cst
  let main_v2 : IVec S1048576x9 1 := cmpf .olt main_v0 main_v1
  let main_c : IVec S_ 1 := constantI S_ 1 1#1
  let main_v3 : IVec S_ 1 := (fun x v => Host.reduce IntOp.andi x v reducesTo_S1048576x9_S_d0_1 h_S_) main_v2 main_c
  let main_v4 : FVec F S9x128 .f32 := Host.absf main_arg1
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S1048576x9 : Shape := ⟨2, ![1048576, 9]⟩
abbrev S9x128 : Shape := ⟨2, ![9, 128]⟩
abbrev S1x128 : Shape := ⟨2, ![1, 128]⟩
abbrev S128x64 : Shape := ⟨2, ![128, 64]⟩
abbrev S1x64 : Shape := ⟨2, ![1, 64]⟩
abbrev S64x9 : Shape := ⟨2, ![64, 9]⟩
abbrev S1x9 : Shape := ⟨2, ![1, 9]⟩
abbrev S4096x9 : Shape := ⟨2, ![4096, 9]⟩
abbrev S4096x128 : Shape := ⟨2, ![4096, 128]⟩
abbrev S4096x64 : Shape := ⟨2, ![4096, 64]⟩

abbrev nBuf : Space → Nat
  | .hbm => 11
  | .vmem => 10
  | .smem => 0
  | _ => 0

abbrev bufTy : (tb : Table) → Fin (tcTables nBuf tb) → BufTy
  | .hbm, ⟨0, _⟩ => ⟨S1048576x9, .f32⟩
  | .hbm, ⟨1, _⟩ => ⟨S9x128, .f32⟩
  | .hbm, ⟨2, _⟩ => ⟨S1x128, .f32⟩
  | .hbm, ⟨3, _⟩ => ⟨S128x64, .f32⟩
  | .hbm, ⟨4, _⟩ => ⟨S1x64, .f32⟩
  | .hbm, ⟨5, _⟩ => ⟨S64x9, .f32⟩
  | .hbm, ⟨6, _⟩ => ⟨S1x9, .f32⟩
  | .hbm, ⟨7, _⟩ => ⟨S9x128, .bf16⟩
  | .hbm, ⟨8, _⟩ => ⟨S128x64, .bf16⟩
  | .hbm, ⟨9, _⟩ => ⟨S64x9, .bf16⟩
  | .hbm, ⟨10, _⟩ => ⟨S1048576x9, .f32⟩
  | .local _ .vmem, ⟨0, _⟩ => ⟨S4096x9, .f32⟩
  | .local _ .vmem, ⟨1, _⟩ => ⟨S4096x9, .f32⟩
  | .local _ .vmem, ⟨2, _⟩ => ⟨S9x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S64x9, .bf16⟩
  | .local _ .vmem, ⟨7, _⟩ => ⟨S1x9, .f32⟩
  | .local _ .vmem, ⟨8, _⟩ => ⟨S4096x9, .f32⟩
  | .local _ .vmem, ⟨9, _⟩ => ⟨S4096x9, .f32⟩
  | _, _ => ⟨S1048576x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x9 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S4096x9_S4096x9_0_0 : ∀ a, (![0, 0] : Fin 2 → Nat) a + S4096x9.size a ≤ S4096x9.size a
  h_S4096x9 : 0 < S4096x9.numel
  inb_S9x128_S9x128_0_0 : ∀ a, (![0, 0] : Fin 2 → Nat) a + S9x128.size a ≤ S9x128.size a
  h_S9x128 : 0 < S9x128.numel
  shapeCasts_S9x128_S9x128 : S9x128.ShapeCasts S9x128
  inb_S1x128_S1x128_0_0 : ∀ a, (![0, 0] : Fin 2 → Nat) a + S1x128.size a ≤ S1x128.size a
  h_S1x128 : 0 < S1x128.numel
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  broadcasts_S1x64_S4096x64 : S1x64.Broadcasts S4096x64
  inb_S64x9_S64x9_0_0 : ∀ a, (![0, 0] : Fin 2 → Nat) a + S64x9.size a ≤ S64x9.size a
  h_S64x9 : 0 < S64x9.numel
  shapeCasts_S64x9_S64x9 : S64x9.ShapeCasts S64x9
  inb_S1x9_S1x9_0_0 : ∀ a, (![0, 0] : Fin 2 → Nat) a + S1x9.size a ≤ S1x9.size a
  h_S1x9 : 0 < S1x9.numel
  broadcasts_S1x9_S4096x9 : S1x9.Broadcasts S4096x9
  dot_S4096x9_S9x128_S4096x128_1_0_0_1_n_n_wf : DotDims.WF S4096x9 S9x128 S4096x128 [1] [0] [0] [1] [] []
  dot_S4096x128_S128x64_S4096x64_1_0_0_1_n_n_wf : DotDims.WF S4096x128 S128x64 S4096x64 [1] [0] [0] [1] [] []
  dot_S4096x64_S64x9_S4096x9_1_0_0_1_n_n_wf : DotDims.WF S4096x64 S64x9 S4096x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x9.size a ≤ S1048576x9.size a
  hwx0_0 : ∀ i : grid0.Coords, EltTy.bits .f32 = 32 ∨ (Rect.block (s := S1048576x9) S4096x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .bf16 = 32 ∨ (Rect.block (s := S9x128) S9x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x9.size a ≤ S64x9.size a
  hwx0_5 : ∀ i : grid0.Coords, EltTy.bits .bf16 = 32 ∨ (Rect.block (s := S64x9) S64x9.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x9.size a ≤ S1x9.size a
  hwx0_6 : ∀ i : grid0.Coords, EltTy.bits .f32 = 32 ∨ (Rect.block (s := S1x9) S1x9.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x9.size a ≤ S1048576x9.size a
  hwx0_7 : ∀ i : grid0.Coords, EltTy.bits .f32 = 32 ∨ (Rect.block (s := S1048576x9) S4096x9.size (cc0_transform_7 i) (hinb0_7 i)).WholeWords (EltTy.packing .f32)

variable [Facts₀]

def dot_S4096x9_S9x128_S4096x128_1_0_0_1_n_n : DotDims S4096x9 S9x128 S4096x128 where
  lhsContracting := [1]
  rhsContracting := [0]
  lhsNonContracting := [0]
  rhsNonContracting := [1]
  lhsBatch := []
  rhsBatch := []
  wf := dot_S4096x9_S9x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x9_S4096x9_1_0_0_1_n_n : DotDims S4096x64 S64x9 S4096x9 where
  lhsContracting := [1]
  rhsContracting := [0]
  lhsNonContracting := [0]
  rhsNonContracting := [1]
  lhsBatch := []
  rhsBatch := []
  wf := dot_S4096x64_S64x9_S4096x9_1_0_0_1_n_n_wf

abbrev win0_0 : Pipeline.Window sig grid0 :=
  Pipeline.Window.ofSpec (Memref.whole main_arg0) S4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x9.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x9 : Shape := ⟨2, ![1048576, 9]⟩
abbrev S9x128 : Shape := ⟨2, ![9, 128]⟩
abbrev S1x128 : Shape := ⟨2, ![1, 128]⟩
abbrev S128x64 : Shape := ⟨2, ![128, 64]⟩
abbrev S1x64 : Shape := ⟨2, ![1, 64]⟩
abbrev S64x9 : Shape := ⟨2, ![64, 9]⟩
abbrev S1x9 : Shape := ⟨2, ![1, 9]⟩
abbrev S4096x9 : Shape := ⟨2, ![4096, 9]⟩
abbrev S4096x128 : Shape := ⟨2, ![4096, 128]⟩
abbrev S4096x64 : Shape := ⟨2, ![4096, 64]⟩

abbrev nBuf : Space → Nat
  | .hbm => 8
  | .vmem => 10
  | .smem => 0
  | _ => 0

abbrev bufTy : (tb : Table) → Fin (tcTables nBuf tb) → BufTy
  | .hbm, ⟨0, _⟩ => ⟨S1048576x9, .f32⟩
  | .hbm, ⟨1, _⟩ => ⟨S9x128, .f32⟩
  | .hbm, ⟨2, _⟩ => ⟨S1x128, .f32⟩
  | .hbm, ⟨3, _⟩ => ⟨S128x64, .f32⟩
  | .hbm, ⟨4, _⟩ => ⟨S1x64, .f32⟩
  | .hbm, ⟨5, _⟩ => ⟨S64x9, .f32⟩
  | .hbm, ⟨6, _⟩ => ⟨S1x9, .f32⟩
  | .hbm, ⟨7, _⟩ => ⟨S1048576x9, .f32⟩
  | .local _ .vmem, ⟨0, _⟩ => ⟨S4096x9, .f32⟩
  | .local _ .vmem, ⟨1, _⟩ => ⟨S4096x9, .f32⟩
  | .local _ .vmem, ⟨2, _⟩ => ⟨S9x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x9, .f32⟩
  | .local _ .vmem, ⟨7, _⟩ => ⟨S1x9, .f32⟩
  | .local _ .vmem, ⟨8, _⟩ => ⟨S4096x9, .f32⟩
  | .local _ .vmem, ⟨9, _⟩ => ⟨S4096x9, .f32⟩
  | _, _ => ⟨S1048576x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4096x9_S4096x9_0_0 : ∀ a, (![0, 0] : Fin 2 → Nat) a + S4096x9.size a ≤ S4096x9.size a
  h_S4096x9 : 0 < S4096x9.numel
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  broadcasts_S1x64_S4096x64 : S1x64.Broadcasts S4096x64
  inb_S64x9_S64x9_0_0 : ∀ a, (![0, 0] : Fin 2 → Nat) a + S64x9.size a ≤ S64x9.size a
  h_S64x9 : 0 < S64x9.numel
  inb_S1x9_S1x9_0_0 : ∀ a, (![0, 0] : Fin 2 → Nat) a + S1x9.size a ≤ S1x9.size a
  h_S1x9 : 0 < S1x9.numel
  broadcasts_S1x9_S4096x9 : S1x9.Broadcasts S4096x9
  dot_S4096x9_S9x128_S4096x128_1_0_0_1_n_n_wf : DotDims.WF S4096x9 S9x128 S4096x128 [1] [0] [0] [1] [] []
  dot_S4096x128_S128x64_S4096x64_1_0_0_1_n_n_wf : DotDims.WF S4096x128 S128x64 S4096x64 [1] [0] [0] [1] [] []
  dot_S4096x64_S64x9_S4096x9_1_0_0_1_n_n_wf : DotDims.WF S4096x64 S64x9 S4096x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x9.size a ≤ S1048576x9.size a
  hwx0_0 : ∀ i : grid0.Coords, EltTy.bits .f32 = 32 ∨ (Rect.block (s := S1048576x9) S4096x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x9.size a ≤ S64x9.size a
  hwx0_5 : ∀ i : grid0.Coords, EltTy.bits .f32 = 32 ∨ (Rect.block (s := S64x9) S64x9.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x9.size a ≤ S1x9.size a
  hwx0_6 : ∀ i : grid0.Coords, EltTy.bits .f32 = 32 ∨ (Rect.block (s := S1x9) S1x9.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x9.size a ≤ S1048576x9.size a
  hwx0_7 : ∀ i : grid0.Coords, EltTy.bits .f32 = 32 ∨ (Rect.block (s := S1048576x9) S4096x9.size (cc0_transform_7 i) (hinb0_7 i)).WholeWords (EltTy.packing .f32)

variable [Facts₀]

def dot_S4096x9_S9x128_S4096x128_1_0_0_1_n_n : DotDims S4096x9 S9x128 S4096x128 where
  lhsContracting := [1]
  rhsContracting := [0]
  lhsNonContracting := [0]
  rhsNonContracting := [1]
  lhsBatch := []
  rhsBatch := []
  wf := dot_S4096x9_S9x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x9_S4096x9_1_0_0_1_n_n : DotDims S4096x64 S64x9 S4096x9 where
  lhsContracting := [1]
  rhsContracting := [0]
  lhsNonContracting := [0]
  rhsNonContracting := [1]
  lhsBatch := []
  rhsBatch := []
  wf := dot_S4096x64_S64x9_S4096x9_1_0_0_1_n_n_wf

abbrev win0_0 : Pipeline.Window sig grid0 :=
  Pipeline.Window.ofSpec (Memref.whole main_arg0) S4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x9.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Net.lean ====
/-
  The three-layer network that both programs compute, as ONE function of the argument arrays.

  A board is a row of 9 extended reals. The network sends a row x to
      relu (relu (x · W1 + b1) · W2 + b2) · W3 + b3,
  with W1 of 9 × 128, W2 of 128 × 64, W3 of 64 × 9 entries, b1, b2, b3 rows of 128, 64 and 9, each
  product a sum over the shared axis, and relu v = max v 0 entry by entry.

  Both programs walk the batch of 1048576 boards in 256 tiles of 4096 consecutive rows and apply the
  network to one tile at a time. `tileNet` is the network on one tile; `net` is the whole batch:
  entry (r, j) of the result is entry (r mod 4096, j) of `tileNet` on tile r / 4096 of the batch. The
  arithmetic of rows and tiles (`glob`, `tileOf`, `inTile`) is kept apart from the network itself.
-/
import proofs.«154411_g2000505634015872_pallasbulk_377_2_alg».proof.KernelIdeal
import proofs.«154411_g2000505634015872_pallasbulk_377_2_alg».proof.Proof.Gen.KernelIdeal
import Idealize.ShloMosaic.PureOps.Ideal
import Idealize.ShloMosaic.Lib.ValueIdx

noncomputable section

namespace Cert.Mlp

open Idealize.ShloMosaic Idealize.ShloMosaic.ValueIdx Cert.KernelIdeal Cert.KernelIdeal.Facts₀

/-! ## The network on one tile -/

/-- max v 0, entry by entry. -/
def relu {s : Shape} (v : FVec Ideal s .f32) : FVec Ideal s .f32 :=
  maximumf v (broadcast s (Scalar.ofBits .f32 0x00000000#32))

/-- One tile of 4096 boards through the three layers: a product with the layer's weights summed over
    the shared axis, the layer's bias row added to every row, relu after the first two layers. -/
def tileNet (x : FVec Ideal S4096x9 .f32) (w1 : FVec Ideal S9x128 .f32) (b1 : FVec Ideal S1x128 .f32)
    (w2 : FVec Ideal S128x64 .f32) (b2 : FVec Ideal S1x64 .f32) (w3 : FVec Ideal S64x9 .f32) (b3 : FVec Ideal S1x9 .f32) :
    FVec Ideal S4096x9 .f32 :=
  addf
    (matmul dot_S4096x64_S64x9_S4096x9_1_0_0_1_n_n none
      (relu (addf
        (matmul dot_S4096x128_S128x64_S4096x64_1_0_0_1_n_n none
          (relu (addf
            (matmul dot_S4096x9_S9x128_S4096x128_1_0_0_1_n_n none x w1 (constant S4096x128 .f32 0x00000000#32))
            (broadcastTo S4096x128 b1 broadcasts_S1x128_S4096x128)))
          w2 (constant S4096x64 .f32 0x00000000#32))
        (broadcastTo S4096x64 b2 broadcasts_S1x64_S4096x64)))
      w3 (constant S4096x9 .f32 0x00000000#32))
    (broadcastTo S4096x9 b3 broadcasts_S1x9_S4096x9)

/-! ## Rows and tiles -/

/-- Row y of tile t is row 4096 · t + y of the batch. -/
def glob (t : Fin 256) (y : S4096x9.Idx) : S1048576x9.Idx :=
  ix2 (n0 := 1048576) (n1 := 9) ⟨4096 * t.val + (y 0).val, by have := idx2_lt0 y; have := t.isLt; omega⟩ (y 1)

/-- The tile a row of the batch lies in. -/
def tileOf (i : S1048576x9.Idx) : Fin 256 := ⟨(i 0).val / 4096, by have := idx2_lt0 i; omega⟩

/-- Where in its tile an entry of the batch sits. -/
def inTile (i : S1048576x9.Idx) : S4096x9.Idx :=
  ix2 (n0 := 4096) (n1 := 9) ⟨(i 0).val % 4096, Nat.mod_lt _ (by norm_num)⟩ (i 1)

theorem tileOf_glob (t : Fin 256) (y : S4096x9.Idx) : tileOf (glob t y) = t := by
  apply Fin.ext
  show (4096 * t.val + (y 0).val) / 4096 = t.val
  have := idx2_lt0 y
  omega

theorem inTile_glob (t : Fin 256) (y : S4096x9.Idx) : inTile (glob t y) = y := by
  funext a
  match a with
  | ⟨0, _⟩ =>
    apply Fin.ext
    show (4096 * t.val + (y 0).val) % 4096 = (y 0).val
    have := idx2_lt0 y
    omega
  | ⟨1, _⟩ => rfl

/-- Every entry of the batch is an entry of its tile. -/
theorem glob_tileOf_inTile (i : S1048576x9.Idx) : glob (tileOf i) (inTile i) = i := by
  funext a
  match a with
  | ⟨0, _⟩ =>
    apply Fin.ext
    show 4096 * ((i 0).val / 4096) + (i 0).val % 4096 = (i 0).val
    omega
  | ⟨1, _⟩ => rfl

/-- Tile t of the batch: its 4096 consecutive rows. -/
def rowTile (x : FVec Ideal S1048576x9 .f32) (t : Fin 256) : FVec Ideal S4096x9 .f32 := fun y => x (glob t y)

/-! ## The whole batch -/

/-- The network on the whole batch: each entry is read off the network applied to the entry's tile. -/
def net (x : FVec Ideal S1048576x9 .f32) (w1 : FVec Ideal S9x128 .f32) (b1 : FVec Ideal S1x128 .f32)
    (w2 : FVec Ideal S128x64 .f32) (b2 : FVec Ideal S1x64 .f32) (w3 : FVec Ideal S64x9 .f32) (b3 : FVec Ideal S1x9 .f32) :
    FVec Ideal S1048576x9 .f32 :=
  fun i => tileNet (rowTile x (tileOf i)) w1 b1 w2 b2 w3 b3 (inTile i)

/-- Read at row y of tile t, the whole-batch network is the tile network on tile t, at y. -/
theorem net_glob (x : FVec Ideal S1048576x9 .f32) (w1 : FVec Ideal S9x128 .f32) (b1 : FVec Ideal S1x128 .f32)
    (w2 : FVec Ideal S128x64 .f32) (b2 : FVec Ideal S1x64 .f32) (w3 : FVec Ideal S64x9 .f32) (b3 : FVec Ideal S1x9 .f32)
    (t : Fin 256) (y : S4096x9.Idx) :
    net x w1 b1 w2 b2 w3 b3 (glob t y) = tileNet (rowTile x t) w1 b1 w2 b2 w3 b3 y := by
  unfold net
  rw [tileOf_glob, inTile_glob]

end Cert.Mlp

end
-- ==== Proof.Payload.lean ====
/-
  Each program's tile payload IS the network on a tile.

  At the ideal values a change of float format is the identity, a cast to the same shape is the
  identity, and a matrix product into a zero accumulator is the plain sum over the shared axis
  whatever precision the matrix unit is asked for. So the kernel's payload (inputs and hidden
  layers narrowed to bf16, weights narrowed beforehand) and the reference's (f32 throughout,
  products at full precision) are both `tileNet` of the blocks they load.
-/
import proofs.«154411_g2000505634015872_pallasbulk_377_2_alg».proof.Proof.Net
import proofs.«154411_g2000505634015872_pallasbulk_377_2_alg».proof.Proof.Gen.KernelIdeal.Skeleton
import proofs.«154411_g2000505634015872_pallasbulk_377_2_alg».proof.Proof.Gen.ReferenceIdeal.Skeleton
import Idealize.ShloMosaic.Lib.Pipeline.Value

noncomputable section

namespace Cert.Mlp

open Idealize.ShloMosaic

/-- The kernel's payload: the narrowings to bf16 and the same-shape casts drop out. -/
theorem kernel_pay (x : FVec Ideal Cert.KernelIdeal.S4096x9 .f32) (w1 : FVec Ideal Cert.KernelIdeal.S9x128 .bf16)
    (b1 : FVec Ideal Cert.KernelIdeal.S1x128 .f32) (w2 : FVec Ideal Cert.KernelIdeal.S128x64 .bf16)
    (b2 : FVec Ideal Cert.KernelIdeal.S1x64 .f32) (w3 : FVec Ideal Cert.KernelIdeal.S64x9 .bf16)
    (b3 : FVec Ideal Cert.KernelIdeal.S1x9 .f32) :
    Cert.KernelIdeal.Gen.k0_pay1 (F := Ideal) x w1 b1 w2 b2 w3 b3 = tileNet x w1 b1 w2 b2 w3 b3 := by
  unfold Cert.KernelIdeal.Gen.k0_pay1 tileNet relu
  simp only [shapeCast_self]
  rfl

/-- The reference's payload: the same tree, its products asked at full precision. -/
theorem reference_pay (x : FVec Ideal Cert.ReferenceIdeal.S4096x9 .f32) (w1 : FVec Ideal Cert.ReferenceIdeal.S9x128 .f32)
    (b1 : FVec Ideal Cert.ReferenceIdeal.S1x128 .f32) (w2 : FVec Ideal Cert.ReferenceIdeal.S128x64 .f32)
    (b2 : FVec Ideal Cert.ReferenceIdeal.S1x64 .f32) (w3 : FVec Ideal Cert.ReferenceIdeal.S64x9 .f32)
    (b3 : FVec Ideal Cert.ReferenceIdeal.S1x9 .f32) :
    Cert.ReferenceIdeal.Gen.k0_pay1 (F := Ideal) x w1 b1 w2 b2 w3 b3 = tileNet x w1 b1 w2 b2 w3 b3 := by
  unfold Cert.ReferenceIdeal.Gen.k0_pay1 tileNet relu
  rfl

end Cert.Mlp

end
-- ==== Proof.KernelWhole.lean ====
/-
  The idealized kernel's result array is the network of its arguments.

  Grid point t stages rows 4096 · t … 4096 · t + 4095 of the batch (window 0) and the six weight and
  bias arrays whole (windows 1 to 6), and writes back the same rows of the result (window 7). What it
  writes is the network on the tile it staged, which is tile t of `net` of the arrays; the 256 tiles
  are disjoint and fill the result, since row r lies in tile r / 4096. So the result array ends at
  `net` of the argument arrays.
-/
import proofs.«154411_g2000505634015872_pallasbulk_377_2_alg».proof.Proof.Payload
import proofs.«154411_g2000505634015872_pallasbulk_377_2_alg».proof.Proof.Gen.KernelIdeal.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 256 grid points: the batch window and the result window
    sit at block (t, 0); every weight and bias window sits at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point, as the number of the tile it works on. -/
def tile (t : Fin cfg0.N) : Fin 256 := Fin.cast N_0 t

/-- The weights as the region finds them were narrowed to bf16 beforehand: at the ideal values that is
    the array itself. -/
theorem narrowed_w1 (c : Dev nD) : (V m c main_v0 : S9x128.Idx → EReal) = m ((c : Thread nD τ).loc main_arg1) := by
  dsimp only [Gen.V, Gen.hostOps0]; after_results; rfl
theorem narrowed_w2 (c : Dev nD) : (V m c main_v1 : S128x64.Idx → EReal) = m ((c : Thread nD τ).loc main_arg3) := by
  dsimp only [Gen.V, Gen.hostOps0]; after_results; rfl
theorem narrowed_w3 (c : Dev nD) : (V m c main_v2 : S64x9.Idx → EReal) = m ((c : Thread nD τ).loc main_arg5) := by
  dsimp only [Gen.V, Gen.hostOps0]; after_results; rfl

/-- WHAT POINT t WRITES BACK is tile t of the network of the arrays as the region finds them. -/
theorem flushed_eq (c : Dev nD) (t : Fin cfg0.N) :
    (dats m 0 c).flushed 7 t = ((cfg0.win 7).blk t).view.read (Elt Ideal)
      (net (V m c main_arg0) (V m c main_v0) (V m c main_arg2) (V m c main_v1) (V m c main_arg4) (V m c main_v2) (V m c main_arg6)) := by
  rw [Value.flushed7]
  unfold out0_7
  rw [View.canon_unit_zero zero_offsets]
  simp only [View.ld_unit_zero (S := S4096x9) zero_offsets, View.ld_unit_zero (S := S9x128) zero_offsets,
    View.ld_unit_zero (S := S1x128) zero_offsets, View.ld_unit_zero (S := S128x64) zero_offsets,
    View.ld_unit_zero (S := S1x64) zero_offsets, View.ld_unit_zero (S := S64x9) zero_offsets,
    View.ld_unit_zero (S := S1x9) zero_offsets]
  obtain ⟨e00, e01, e10, e11, e20, e21, e30, e31, e40, e41, e50, e51, e60, e61, e70, e71⟩ := index_maps t
  funext y
  show k0_pay1 (iblk m c 0 t) (iblk m c 1 t) (iblk m c 2 t) (iblk m c 3 t) (iblk m c 4 t) (iblk m c 5 t) (iblk m c 6 t) y
    = net (V m c main_arg0) (V m c main_v0) (V m c main_arg2) (V m c main_v1) (V m c main_arg4) (V m c main_v2) (V m c main_arg6) (((cfg0.win 7).blk t).view.emb y)
  refine (congrFun (kernel_pay _ _ _ _ _ _ _) y).trans ?_
  -- the entry of the result that entry y of point t's block lands on
  have e7 : ((cfg0.win 7).blk t).view.emb y = glob (tile t) y := by
    funext a; apply Fin.ext
    match a with
    | ⟨0, _⟩ => show win0_7.index t (0 : Fin 2) * 4096 + 1 * (y 0).val = 4096 * t.val + (y 0).val; omega
    | ⟨1, _⟩ => show win0_7.index t (1 : Fin 2) * 9 + 1 * (y 1).val = (y 1).val; omega
  rw [e7, net_glob]
  -- the blocks the point staged: tile t of the batch, and each weight and bias array whole
  have h0 : iblk m c 0 t = rowTile (V m c main_arg0) (tile t) := by
    funext z
    show V m c main_arg0 (((cfg0.win 0).blk t).view.emb z) = V m c main_arg0 (glob (tile t) z)
    congr 1
    funext a; apply Fin.ext
    match a with
    | ⟨0, _⟩ => show win0_0.index t (0 : Fin 2) * 4096 + 1 * (z 0).val = 4096 * t.val + (z 0).val; omega
    | ⟨1, _⟩ => show win0_0.index t (1 : Fin 2) * 9 + 1 * (z 1).val = (z 1).val; omega
  have h1 : iblk m c 1 t = V m c main_v0 := by
    funext z
    show V m c main_v0 (((cfg0.win 1).blk t).view.emb z) = V m c main_v0 z
    congr 1
    funext a; apply Fin.ext
    match a with
    | ⟨0, _⟩ => show win0_1.index t (0 : Fin 2) * 9 + 1 * (z 0).val = (z 0).val; omega
    | ⟨1, _⟩ => show win0_1.index t (1 : Fin 2) * 128 + 1 * (z 1).val = (z 1).val; omega
  have h2 : iblk m c 2 t = V m c main_arg2 := by
    funext z
    show V m c main_arg2 (((cfg0.win 2).blk t).view.emb z) = V m c main_arg2 z
    congr 1
    funext a; apply Fin.ext
    match a with
    | ⟨0, _⟩ => show win0_2.index t (0 : Fin 2) * 1 + 1 * (z 0).val = (z 0).val; omega
    | ⟨1, _⟩ => show win0_2.index t (1 : Fin 2) * 128 + 1 * (z 1).val = (z 1).val; omega
  have h3 : iblk m c 3 t = V m c main_v1 := by
    funext z
    show V m c main_v1 (((cfg0.win 3).blk t).view.emb z) = V m c main_v1 z
    congr 1
    funext a; apply Fin.ext
    match a with
    | ⟨0, _⟩ => show win0_3.index t (0 : Fin 2) * 128 + 1 * (z 0).val = (z 0).val; omega
    | ⟨1, _⟩ => show win0_3.index t (1 : Fin 2) * 64 + 1 * (z 1).val = (z 1).val; omega
  have h4 : iblk m c 4 t = V m c main_arg4 := by
    funext z
    show V m c main_arg4 (((cfg0.win 4).blk t).view.emb z) = V m c main_arg4 z
    congr 1
    funext a; apply Fin.ext
    match a with
    | ⟨0, _⟩ => show win0_4.index t (0 : Fin 2) * 1 + 1 * (z 0).val = (z 0).val; omega
    | ⟨1, _⟩ => show win0_4.index t (1 : Fin 2) * 64 + 1 * (z 1).val = (z 1).val; omega
  have h5 : iblk m c 5 t = V m c main_v2 := by
    funext z
    show V m c main_v2 (((cfg0.win 5).blk t).view.emb z) = V m c main_v2 z
    congr 1
    funext a; apply Fin.ext
    match a with
    | ⟨0, _⟩ => show win0_5.index t (0 : Fin 2) * 64 + 1 * (z 0).val = (z 0).val; omega
    | ⟨1, _⟩ => show win0_5.index t (1 : Fin 2) * 9 + 1 * (z 1).val = (z 1).val; omega
  have h6 : iblk m c 6 t = V m c main_arg6 := by
    funext z
    show V m c main_arg6 (((cfg0.win 6).blk t).view.emb z) = V m c main_arg6 z
    congr 1
    funext a; apply Fin.ext
    match a with
    | ⟨0, _⟩ => show win0_6.index t (0 : Fin 2) * 1 + 1 * (z 0).val = (z 0).val; omega
    | ⟨1, _⟩ => show win0_6.index t (1 : Fin 2) * 9 + 1 * (z 1).val = (z 1).val; omega
  rw [h0, h1, h2, h3, h4, h5, h6]

/-- An entry of the result is in point t's block iff its row is one of tile t's and its column any. -/
theorem mem_blk (t : Fin cfg0.N) (i : S1048576x9.Idx) :
    i ∈ ((cfg0.win 7).blk t).view.set ↔ ∀ a : Fin 2, win0_7.index t a * S4096x9.size a ≤ (i a).val ∧ (i a).val < win0_7.index t a * S4096x9.size a + S4096x9.size a := by
  show i ∈ ((View.whole main_v3).slice (win0_7.rect t)).set ↔ _
  rw [View.set_slice_whole, Rect.mem_set_unit]
  exact Iff.rfl

/-- Every entry of the result lies in the block of the point that works on its row's tile. -/
theorem cover (i : S1048576x9.Idx) :
    ∃ t : Fin cfg0.N, (cfg0.win 7).flush t = true ∧ i ∈ ((cfg0.win 7).blk t).view.set := by
  have hi0 : (i 0).val < 1048576 := idx2_lt0 i
  have hi1 : (i 1).val < 9 := idx2_lt1 i
  let t : Fin cfg0.N := ⟨(i 0).val / 4096, lt_of_lt_of_eq (by omega : (i 0).val / 4096 < 256) N_0.symm⟩
  have ht : t.val = (i 0).val / 4096 := rfl
  obtain ⟨-, -, -, -, -, -, -, -, -, -, -, -, -, -, e70, e71⟩ := index_maps t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 9 ≤ (i 1).val ∧ (i 1).val < win0_7.index t (1 : Fin 2) * 9 + 9; omega

/-- THE RESULT ARRAY after the run is the network of the argument arrays. -/
theorem final (c : Dev nD) :
    (dats m 0 c).arrAt 7 cfg0.N = net (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [(dats m 0 c).arrAt_eq_of_cover 7 _ (fun t _ => flushed_eq m c t) cover]
  rw [V_main_arg0, narrowed_w1, V_main_arg2, narrowed_w2, V_main_arg4, narrowed_w3, V_main_arg6]

/-- The run: it ends with the result array at the network of the arguments, and the arguments unchanged. -/
theorem run : θ_run defs (onTc (τ := τ) (main (F := Ideal))) ⟨m, fun _ => 0, ρ⟩ fun r => ∀ c : Dev nD,
      r.2.mem ((c : Thread nD τ).loc main_v3) = net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.ReferenceWhole.lean ====
/-
  The idealized reference's result array is the network of its arguments.

  Grid point t stages rows 4096 · t … 4096 · t + 4095 of the batch (window 0) and the six weight and
  bias arrays whole (windows 1 to 6), and writes back the same rows of the result (window 7). What it
  writes is the network on the tile it staged, which is tile t of `net` of the arrays; the 256 tiles
  are disjoint and fill the result, since row r lies in tile r / 4096. So the result array ends at
  `net` of the argument arrays.
-/
import proofs.«154411_g2000505634015872_pallasbulk_377_2_alg».proof.Proof.Payload
import proofs.«154411_g2000505634015872_pallasbulk_377_2_alg».proof.Proof.Gen.ReferenceIdeal.Value
import Idealize.ShloMosaic.Lib.StableHlo.Run
import Idealize.ShloMosaic.Lib.ValueIdx

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 256 grid points: the batch window and the result window
    sit at block (t, 0); every weight and bias window sits at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point, as the number of the tile it works on. -/
def tile (t : Fin cfg0.N) : Fin 256 := Fin.cast N_0 t

/-- WHAT POINT t WRITES BACK is tile t of the network of the arrays as the region finds them. -/
theorem flushed_eq (c : Dev nD) (t : Fin cfg0.N) :
    (dats m 0 c).flushed 7 t = ((cfg0.win 7).blk t).view.read (Elt Ideal)
      (net (V m c main_arg0) (V m c main_arg1) (V m c main_arg2) (V m c main_arg3) (V m c main_arg4) (V m c main_arg5) (V m c main_arg6)) := by
  rw [Value.flushed7]
  unfold out0_7
  rw [View.canon_unit_zero zero_offsets]
  simp only [View.ld_unit_zero (S := S4096x9) zero_offsets, View.ld_unit_zero (S := S9x128) zero_offsets,
    View.ld_unit_zero (S := S1x128) zero_offsets, View.ld_unit_zero (S := S128x64) zero_offsets,
    View.ld_unit_zero (S := S1x64) zero_offsets, View.ld_unit_zero (S := S64x9) zero_offsets,
    View.ld_unit_zero (S := S1x9) zero_offsets]
  obtain ⟨e00, e01, e10, e11, e20, e21, e30, e31, e40, e41, e50, e51, e60, e61, e70, e71⟩ := index_maps t
  funext y
  show k0_pay1 (iblk m c 0 t) (iblk m c 1 t) (iblk m c 2 t) (iblk m c 3 t) (iblk m c 4 t) (iblk m c 5 t) (iblk m c 6 t) y
    = net (V m c main_arg0) (V m c main_arg1) (V m c main_arg2) (V m c main_arg3) (V m c main_arg4) (V m c main_arg5) (V m c main_arg6) (((cfg0.win 7).blk t).view.emb y)
  refine (congrFun (reference_pay _ _ _ _ _ _ _) y).trans ?_
  -- the entry of the result that entry y of point t's block lands on
  have e7 : ((cfg0.win 7).blk t).view.emb y = glob (tile t) y := by
    funext a; apply Fin.ext
    match a with
    | ⟨0, _⟩ => show win0_7.index t (0 : Fin 2) * 4096 + 1 * (y 0).val = 4096 * t.val + (y 0).val; omega
    | ⟨1, _⟩ => show win0_7.index t (1 : Fin 2) * 9 + 1 * (y 1).val = (y 1).val; omega
  rw [e7, net_glob]
  -- the blocks the point staged: tile t of the batch, and each weight and bias array whole
  have h0 : iblk m c 0 t = rowTile (V m c main_arg0) (tile t) := by
    funext z
    show V m c main_arg0 (((cfg0.win 0).blk t).view.emb z) = V m c main_arg0 (glob (tile t) z)
    congr 1
    funext a; apply Fin.ext
    match a with
    | ⟨0, _⟩ => show win0_0.index t (0 : Fin 2) * 4096 + 1 * (z 0).val = 4096 * t.val + (z 0).val; omega
    | ⟨1, _⟩ => show win0_0.index t (1 : Fin 2) * 9 + 1 * (z 1).val = (z 1).val; omega
  have h1 : iblk m c 1 t = V m c main_arg1 := by
    funext z
    show V m c main_arg1 (((cfg0.win 1).blk t).view.emb z) = V m c main_arg1 z
    congr 1
    funext a; apply Fin.ext
    match a with
    | ⟨0, _⟩ => show win0_1.index t (0 : Fin 2) * 9 + 1 * (z 0).val = (z 0).val; omega
    | ⟨1, _⟩ => show win0_1.index t (1 : Fin 2) * 128 + 1 * (z 1).val = (z 1).val; omega
  have h2 : iblk m c 2 t = V m c main_arg2 := by
    funext z
    show V m c main_arg2 (((cfg0.win 2).blk t).view.emb z) = V m c main_arg2 z
    congr 1
    funext a; apply Fin.ext
    match a with
    | ⟨0, _⟩ => show win0_2.index t (0 : Fin 2) * 1 + 1 * (z 0).val = (z 0).val; omega
    | ⟨1, _⟩ => show win0_2.index t (1 : Fin 2) * 128 + 1 * (z 1).val = (z 1).val; omega
  have h3 : iblk m c 3 t = V m c main_arg3 := by
    funext z
    show V m c main_arg3 (((cfg0.win 3).blk t).view.emb z) = V m c main_arg3 z
    congr 1
    funext a; apply Fin.ext
    match a with
    | ⟨0, _⟩ => show win0_3.index t (0 : Fin 2) * 128 + 1 * (z 0).val = (z 0).val; omega
    | ⟨1, _⟩ => show win0_3.index t (1 : Fin 2) * 64 + 1 * (z 1).val = (z 1).val; omega
  have h4 : iblk m c 4 t = V m c main_arg4 := by
    funext z
    show V m c main_arg4 (((cfg0.win 4).blk t).view.emb z) = V m c main_arg4 z
    congr 1
    funext a; apply Fin.ext
    match a with
    | ⟨0, _⟩ => show win0_4.index t (0 : Fin 2) * 1 + 1 * (z 0).val = (z 0).val; omega
    | ⟨1, _⟩ => show win0_4.index t (1 : Fin 2) * 64 + 1 * (z 1).val = (z 1).val; omega
  have h5 : iblk m c 5 t = V m c main_arg5 := by
    funext z
    show V m c main_arg5 (((cfg0.win 5).blk t).view.emb z) = V m c main_arg5 z
    congr 1
    funext a; apply Fin.ext
    match a with
    | ⟨0, _⟩ => show win0_5.index t (0 : Fin 2) * 64 + 1 * (z 0).val = (z 0).val; omega
    | ⟨1, _⟩ => show win0_5.index t (1 : Fin 2) * 9 + 1 * (z 1).val = (z 1).val; omega
  have h6 : iblk m c 6 t = V m c main_arg6 := by
    funext z
    show V m c main_arg6 (((cfg0.win 6).blk t).view.emb z) = V m c main_arg6 z
    congr 1
    funext a; apply Fin.ext
    match a with
    | ⟨0, _⟩ => show win0_6.index t (0 : Fin 2) * 1 + 1 * (z 0).val = (z 0).val; omega
    | ⟨1, _⟩ => show win0_6.index t (1 : Fin 2) * 9 + 1 * (z 1).val = (z 1).val; omega
  rw [h0, h1, h2, h3, h4, h5, h6]

/-- An entry of the result is in point t's block iff its row is one of tile t's and its column any. -/
theorem mem_blk (t : Fin cfg0.N) (i : S1048576x9.Idx) :
    i ∈ ((cfg0.win 7).blk t).view.set ↔ ∀ a : Fin 2, win0_7.index t a * S4096x9.size a ≤ (i a).val ∧ (i a).val < win0_7.index t a * S4096x9.size a + S4096x9.size a := by
  show i ∈ ((View.whole main_v0).slice (win0_7.rect t)).set ↔ _
  rw [View.set_slice_whole, Rect.mem_set_unit]
  exact Iff.rfl

/-- Every entry of the result lies in the block of the point that works on its row's tile. -/
theorem cover (i : S1048576x9.Idx) :
    ∃ t : Fin cfg0.N, (cfg0.win 7).flush t = true ∧ i ∈ ((cfg0.win 7).blk t).view.set := by
  have hi0 : (i 0).val < 1048576 := idx2_lt0 i
  have hi1 : (i 1).val < 9 := idx2_lt1 i
  let t : Fin cfg0.N := ⟨(i 0).val / 4096, lt_of_lt_of_eq (by omega : (i 0).val / 4096 < 256) N_0.symm⟩
  have ht : t.val = (i 0).val / 4096 := rfl
  obtain ⟨-, -, -, -, -, -, -, -, -, -, -, -, -, -, e70, e71⟩ := index_maps t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 9 ≤ (i 1).val ∧ (i 1).val < win0_7.index t (1 : Fin 2) * 9 + 9; omega

/-- THE RESULT ARRAY after the run is the network of the argument arrays. -/
theorem final (c : Dev nD) :
    (dats m 0 c).arrAt 7 cfg0.N = net (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [(dats m 0 c).arrAt_eq_of_cover 7 _ (fun t _ => flushed_eq m c t) cover]

/-- The run: it ends with the result array at the network of the arguments, and the arguments unchanged. -/
theorem run : θ_run defs (onTc (τ := τ) (main (F := Ideal))) ⟨m, fun _ => 0, ρ⟩ fun r => ∀ c : Dev nD,
      r.2.mem ((c : Thread nD τ).loc main_v0) = net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.Whole

end
-- ==== Proof.lean ====
/-
  The kernel and its reference are one three-layer network, tile by tile.

  Both programs send a batch of 1048576 boards (rows of 9 numbers) through
      relu (relu (x · W1 + b1) · W2 + b2) · W3 + b3
  in 256 tiles of 4096 rows. The kernel narrows the weights, the boards and the two hidden layers to
  bf16 before each product and accumulates in f32; the reference keeps f32 and asks its products at full
  precision. Over the extended reals a change of float format is the identity and a product into a zero
  accumulator is the exact sum over the shared axis at any precision, so each program's tile payload is the
  same function `Cert.Mlp.tileNet` of the blocks it loads (Proof/Payload.lean), and each program's
  result array ends at the same function `Cert.Mlp.net` of its argument arrays (Proof/KernelWhole.lean,
  Proof/ReferenceWhole.lean): point t writes tile t, and the tiles fill the result. No law of arithmetic is
  needed, so the inputs' finiteness is never used. The idealization rewrote nothing, so `preserves` has
  nothing to state.
-/
import proofs.«154411_g2000505634015872_pallasbulk_377_2_alg».proof.Defs
import proofs.«154411_g2000505634015872_pallasbulk_377_2_alg».proof.Proof.Gen.Kernel
import proofs.«154411_g2000505634015872_pallasbulk_377_2_alg».proof.Proof.Gen.Kernel.Skeleton
import proofs.«154411_g2000505634015872_pallasbulk_377_2_alg».proof.Proof.Gen.Kernel.Launch
import proofs.«154411_g2000505634015872_pallasbulk_377_2_alg».proof.Proof.Gen.Kernel.Points
import proofs.«154411_g2000505634015872_pallasbulk_377_2_alg».proof.Proof.Gen.Kernel.Frame
import proofs.«154411_g2000505634015872_pallasbulk_377_2_alg».proof.Proof.Gen.KernelIdeal
import proofs.«154411_g2000505634015872_pallasbulk_377_2_alg».proof.Proof.Gen.KernelIdeal.Skeleton
import proofs.«154411_g2000505634015872_pallasbulk_377_2_alg».proof.Proof.Gen.KernelIdeal.Launch
import proofs.«154411_g2000505634015872_pallasbulk_377_2_alg».proof.Proof.Gen.KernelIdeal.Points
import proofs.«154411_g2000505634015872_pallasbulk_377_2_alg».proof.Proof.Gen.KernelIdeal.Frame
import proofs.«154411_g2000505634015872_pallasbulk_377_2_alg».proof.Proof.Gen.ReferenceIdeal
import proofs.«154411_g2000505634015872_pallasbulk_377_2_alg».proof.Proof.Gen.ReferenceIdeal.Skeleton
import proofs.«154411_g2000505634015872_pallasbulk_377_2_alg».proof.Proof.Gen.ReferenceIdeal.Launch
import proofs.«154411_g2000505634015872_pallasbulk_377_2_alg».proof.Proof.Gen.ReferenceIdeal.Points
import proofs.«154411_g2000505634015872_pallasbulk_377_2_alg».proof.Proof.Gen.ReferenceIdeal.Frame
import proofs.«154411_g2000505634015872_pallasbulk_377_2_alg».proof.Proof.Gen.Pre_finite_inputs
import proofs.«154411_g2000505634015872_pallasbulk_377_2_alg».proof.Proof.Gen.KernelIdeal.Value
import proofs.«154411_g2000505634015872_pallasbulk_377_2_alg».proof.Proof.Gen.ReferenceIdeal.Value
import proofs.«154411_g2000505634015872_pallasbulk_377_2_alg».proof.Proof.KernelWhole
import proofs.«154411_g2000505634015872_pallasbulk_377_2_alg».proof.Proof.ReferenceWhole
import Idealize.ShloMosaic.Adequacy
import Idealize.ShloMosaic.Init

noncomputable section

namespace Cert.Proof

open Idealize.ShloMosaic Idealize.ShloMosaic.TcCoe Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Run from memories that agree on the arguments, both idealized programs end with the result array at the
    network of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
